-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S16x10000x256 : Shape := ⟨3, ![16, 10000, 256]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S16x10000x256 : S_.BroadcastsInDim S16x10000x256 (![] : Fin 0 → Fin S16x10000x256.rank)
  reducesTo_S16x10000x256_S_d0_1_2 : S16x10000x256.ReducesTo [0, 1, 2] S_

variable [Facts]

def fn {F : FTy → Type} [FloatOps F] (main_arg0 : FVec F S10000x1 .f32) (main_arg1 : FVec F S16x10000x256 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S16x10000x256 .f32 := Host.absf main_arg1
  let main_cst_0 : FVec F S_ .f32 := constant S_ .f32 0x7F800000#32
  let main_v5 : FVec F S16x10000x256 .f32 := broadcastInDim S16x10000x256 ![] bcast_S_S16x10000x256 main_cst_0
  let main_v6 : IVec S16x10000x256 1 := cmpf .olt main_v4 main_v5
  let main_c_1 : IVec S_ 1 := constantI S_ 1 1#1
  let main_v7 : IVec S_ 1 := (fun x v => Host.reduce IntOp.andi x v reducesTo_S16x10000x256_S_d0_1_2 h_S_) main_v6 main_c_1
  let main_v8 : IVec S_ 1 := andi main_v3 main_v7
  main_v8
-- ==== Kernel.lean ====
abbrev S10000x1 : Shape := ⟨2, ![10000, 1]⟩
abbrev S16x10000x256 : Shape := ⟨3, ![16, 10000, 256]⟩
abbrev S10000x256 : Shape := ⟨2, ![10000, 256]⟩
abbrev S200x1 : Shape := ⟨2, ![200, 1]⟩
abbrev S16x200x256 : Shape := ⟨3, ![16, 200, 256]⟩
abbrev S200x256 : Shape := ⟨2, ![200, 256]⟩
abbrev S1x200x1 : Shape := ⟨3, ![1, 200, 1]⟩

abbrev nBuf : Space → Nat
  | .hbm => 3
  | .vmem => 6
  | .smem => 0
  | _ => 0

abbrev bufTy : (tb : Table) → Fin (tcTables nBuf tb) → BufTy
  | .hbm, ⟨0, _⟩ => ⟨S10000x1, .f32⟩
  | .hbm, ⟨1, _⟩ => ⟨S16x10000x256, .f32⟩
  | .hbm, ⟨2, _⟩ => ⟨S10000x256, .f32⟩
  | .local _ .vmem, ⟨0, _⟩ => ⟨S200x1, .f32⟩
  | .local _ .vmem, ⟨1, _⟩ => ⟨S200x1, .f32⟩
  | .local _ .vmem, ⟨2, _⟩ => ⟨S16x200x256, .f32⟩
  | .local _ .vmem, ⟨3, _⟩ => ⟨S16x200x256, .f32⟩
  | .local _ .vmem, ⟨4, _⟩ => ⟨S200x256, .f32⟩
  | .local _ .vmem, ⟨5, _⟩ => ⟨S200x256, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S200x1_S200x1_0_0 : ∀ a, (![0, 0] : Fin 2 → Nat) a + S200x1.size a ≤ S200x1.size a
  h_S200x1 : 0 < S200x1.numel
  shapeCasts_S200x1_S1x200x1 : S200x1.ShapeCasts S1x200x1
  reduces_S1x200x1_S200x1 : S1x200x1.Reduces [0] S200x1
  shapeCasts_S1x200x1_S200x1 : S1x200x1.ShapeCasts S200x1
  inb_S16x200x256_S16x200x256_0_0_0 : ∀ a, (![0, 0, 0] : Fin 3 → Nat) a + S16x200x256.size a ≤ S16x200x256.size a
  h_S16x200x256 : 0 < S16x200x256.numel
  reduces_S16x200x256_S200x256 : S16x200x256.Reduces [0] S200x256
  broadcasts_S200x1_S200x256 : S200x1.Broadcasts S200x256
  inb_S200x256_S200x256_0_0 : ∀ a, (![0, 0] : Fin 2 → Nat) a + S200x256.size a ≤ S200x256.size a
  h_S200x256 : 0 < S200x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1.size a ≤ S10000x1.size a
  hwx0_0 : ∀ i : grid0.Coords, EltTy.bits .f32 = 32 ∨ (Rect.block (s := S10000x1) S200x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x200x256.size a ≤ S16x10000x256.size a
  hwx0_1 : ∀ i : grid0.Coords, EltTy.bits .f32 = 32 ∨ (Rect.block (s := S16x10000x256) S16x200x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)

variable [Facts₀]

abbrev win0_0 : Pipeline.Window sig grid0 :=
  Pipeline.Window.ofSpec (Memref.whole main_arg0) S200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x1 : Shape := ⟨2, ![10000, 1]⟩
abbrev S16x10000x256 : Shape := ⟨3, ![16, 10000, 256]⟩
abbrev S1x10000x1 : Shape := ⟨3, ![1, 10000, 1]⟩
abbrev S_ : Shape := ⟨0, ![]⟩
abbrev S10000x256 : Shape := ⟨2, ![10000, 256]⟩

abbrev nBuf : Space → Nat
  | .hbm => 19
  | .vmem => 0
  | .smem => 0
  | _ => 0

abbrev bufTy : (tb : Table) → Fin (tcTables nBuf tb) → BufTy
  | .hbm, ⟨0, _⟩ => ⟨S10000x1, .f32⟩
  | .hbm, ⟨1, _⟩ => ⟨S16x10000x256, .f32⟩
  | .hbm, ⟨2, _⟩ => ⟨S1x10000x1, .f32⟩
  | .hbm, ⟨3, _⟩ => ⟨S_, .f32⟩
  | .hbm, ⟨4, _⟩ => ⟨S10000x1, .f32⟩
  | .hbm, ⟨5, _⟩ => ⟨S_, .f32⟩
  | .hbm, ⟨6, _⟩ => ⟨S10000x1, .f32⟩
  | .hbm, ⟨7, _⟩ => ⟨S10000x1, .f32⟩
  | .hbm, ⟨8, _⟩ => ⟨S1x10000x1, .f32⟩
  | .hbm, ⟨9, _⟩ => ⟨S1x10000x1, .f32⟩
  | .hbm, ⟨10, _⟩ => ⟨S1x10000x1, .f32⟩
  | .hbm, ⟨11, _⟩ => ⟨S_, .f32⟩
  | .hbm, ⟨12, _⟩ => ⟨S10000x1, .f32⟩
  | .hbm, ⟨13, _⟩ => ⟨S1x10000x1, .f32⟩
  | .hbm, ⟨14, _⟩ => ⟨S1x10000x1, .f32⟩
  | .hbm, ⟨15, _⟩ => ⟨S16x10000x256, .f32⟩
  | .hbm, ⟨16, _⟩ => ⟨S16x10000x256, .f32⟩
  | .hbm, ⟨17, _⟩ => ⟨S_, .f32⟩
  | .hbm, ⟨18, _⟩ => ⟨S10000x256, .f32⟩
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S10000x1_S1x10000x1_1_2 : S10000x1.BroadcastsInDim S1x10000x1 (![1, 2] : Fin 2 → Fin S1x10000x1.rank)
  reducesTo_S1x10000x1_S10000x1_d0 : S1x10000x1.ReducesTo [0] S10000x1
  h_S_ : 0 < S_.numel
  bcast_S_S10000x1 : S_.BroadcastsInDim S10000x1 (![] : Fin 0 → Fin S10000x1.rank)
  bcast_S1x10000x1_S16x10000x256_0_1_2 : S1x10000x1.BroadcastsInDim S16x10000x256 (![0, 1, 2] : Fin 3 → Fin S16x10000x256.rank)
  reducesTo_S16x10000x256_S10000x256_d0 : S16x10000x256.ReducesTo [0] S10000x256

variable [Facts₀]

class Facts : Prop extends Facts₀ where

variable [Facts]
-- ==== Proof.SlabSum.lean ====
/-
  The common value of the two programs: the sum over the 16 slabs of ft, entry by entry,
      out[n, q] = Σ_k ft[k, n, q]        (k < 16, n < 10000, q < 256).
  It does not mention the column a: wherever a is real its softmax weight is 1 on both sides.
-/
import Idealize.ShloMosaic.PureOps.Ideal
import Idealize.ShloMosaic.Lib.ValueIdx

noncomputable section

open Idealize.ShloMosaic Idealize.ShloMosaic.ValueIdx

namespace Cert.SlabSum

/-- The sum over the leading axis of a [16, 10000, 256] array. -/
def slabSum (ft : (⟨3, ![16, 10000, 256]⟩ : Shape).Idx → EReal) : (⟨2, ![10000, 256]⟩ : Shape).Idx → EReal :=
  fun i => ∑ k : Fin 16, ft (ix3 k (i 0) (i 1))

/-- At explicit coordinates. -/
theorem slabSum_apply (ft : (⟨3, ![16, 10000, 256]⟩ : Shape).Idx → EReal) (n : Fin 10000) (q : Fin 256) :
    slabSum ft (ix2 n q) = ∑ k : Fin 16, ft (ix3 k n q) := rfl

end Cert.SlabSum

end
-- ==== Proof.FiniteColumn.lean ====
/-
  What the precondition gives: the predicate "every entry of a and of ft has absolute value below +∞", read back
  for the column a. An extended real x with max(x, −x) < +∞ is neither +∞ nor −∞, so it is a real number; the
  predicate is a conjunction of two all-reductions, and an all-reduction that came out true was true at every index.
-/
import proofs.«107519_g33114197852456_cont_9to1_1009_6_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Cert.Pre_finite_inputs.Decode

variable [Cert.Pre_finite_inputs.Facts]

open Cert.Pre_finite_inputs Cert.Pre_finite_inputs.Facts

/-- The rank-0 shape has one index. -/
instance : Subsingleton S_.Idx := ⟨fun _ _ => funext fun d => d.elim0⟩

/-- The f32 pattern of +∞ denotes the greatest extended real. -/
theorem posInf_eq_top : Ideal.ofBits .f32 0x7F800000#32 = (⊤ : EReal) := by simp [Ideal.ofBits, Ideal.ieee]

/-- An extended real whose absolute value is below +∞ is a real number. -/
theorem real_of_abs_lt_top (x : EReal) (h : max x (-x) < Ideal.ofBits .f32 0x7F800000#32) : ∃ r : ℝ, x = (r : EReal) := by
  rw [posInf_eq_top] at h
  induction x using EReal.rec with
  | bot => exact absurd h (by simp)
  | coe r => exact ⟨r, rfl⟩
  | top => exact absurd h (by simp)

/-- A comparison "less than" that answered 1 held. -/
theorem lt_of_cmp_olt (x y : EReal) (h : Ideal.cmp .olt x y = 1#1) : x < y := by
  by_contra hlt
  simp [Ideal.cmp, hlt] at h

/-- Under the precondition every entry of the column is a real number. -/
theorem column_real (a : FVec Ideal S10000x1 .f32) (ft : FVec Ideal S16x10000x256 .f32)
    (h : fn (F := Ideal) a ft = fun _ => 1#1) (j : S10000x1.Idx) : ∃ r : ℝ, a j = (r : EReal) := by
  have h0 := congrFun h ValueIdx.ix0
  dsimp only [fn] at h0
  obtain ⟨h1, -⟩ := IntOp.andi_eq_one.1 h0
  have hj := Host.reduce_andi_all _ _ _ _ _ h1 j
  exact real_of_abs_lt_top (a j) (lt_of_cmp_olt _ _ hj)

end Cert.Pre_finite_inputs.Decode

end
-- ==== Proof.OneEntrySoftmax.lean ====
/-
  A softmax taken over an axis that holds ONE entry. With the entry a real number r the recipe
  "subtract the maximum, exponentiate, divide by the sum" gives the weight 1: the maximum of the one entry
  (started from −∞) is r itself, so the shifted entry is r − r = 0, its exponential is 1, the sum of the one
  exponential is 1, and 1 / 1 = 1. On the extended reals this needs r real: at ±∞ the difference r − r is not 0.

  The second half reads the same recipe as a vector computation over a column [200, 1] that is first given a
  leading unit axis, [1, 200, 1], reduced over that axis and cast back: at a column index j every step touches
  the one entry above j, so the weight at j is 1 wherever the column is real at j.
-/
import Idealize.ShloMosaic.PureOps.Ideal
import Idealize.ShloMosaic.PureOps.Ideal.Laws
import Idealize.ShloMosaic.Lib.Pipeline.Value

noncomputable section

open Idealize.ShloMosaic

namespace Cert.OneEntrySoftmax

/-! ## Scalars -/

/-- The f32 pattern of −∞ denotes the least extended real. -/
theorem negInf_eq_bot : Ideal.ofBits .f32 0xFF800000#32 = (⊥ : EReal) := by simp [Ideal.ofBits, Ideal.ieee]

/-- A maximum taken against −∞ is the other operand. -/
theorem max_negInf (x : EReal) : max (Ideal.ofBits .f32 0xFF800000#32) x = x := by
  rw [negInf_eq_bot]; exact max_bot_left x

/-- The running maximum from −∞ over an index set with one element is the entry there. -/
theorem fold_max_one (f : Fin 1 → EReal) :
    (Finset.univ : Finset (Fin 1)).fold max (Ideal.ofBits .f32 0xFF800000#32) f = f 0 := by
  rw [Finset.univ_unique, Finset.fold_singleton, negInf_eq_bot]; exact max_bot_right _

/-- A real number minus itself is 0 (false at ±∞ on the extended reals). -/
theorem sub_self_real (r : ℝ) : (r : EReal) - (r : EReal) = 0 := by
  rw [← EReal.coe_sub, sub_self, EReal.coe_zero]

/-- e⁰ = 1. -/
theorem exp_zero : Ideal.exp (0 : EReal) = 1 := by
  rw [← EReal.coe_zero, Ideal.exp_coe, Real.exp_zero, EReal.coe_one]

/-- 1 / 1 = 1. -/
theorem div_one_one : Ideal.div (1 : EReal) 1 = 1 := by
  have h := Ideal.div_coe (y := 1) one_ne_zero (1 : EReal)
  rw [EReal.coe_one] at h
  rw [h]; simp

/-- The exponential of a real entry shifted by its own maximum-from-−∞ is 1. -/
theorem shifted_exp_real (r : ℝ) :
    Ideal.exp ((r : EReal) - max (Ideal.ofBits .f32 0xFF800000#32) (r : EReal)) = 1 := by
  rw [max_negInf, sub_self_real, exp_zero]

/-! ## The column computation read at an index -/

/-- A column of 200 entries, and the same entries under a leading unit axis. -/
abbrev Col : Shape := ⟨2, ![200, 1]⟩
abbrev Lifted : Shape := ⟨3, ![1, 200, 1]⟩

/-- Above a column index `j` sits one index of the lifted array; forgetting its leading coordinate gives `j` back. -/
theorem lift_tail (h : Lifted.Reduces [0] Col) (j : Col.Idx) (k : Fin 1) :
    (fun a : Fin 2 => h.lift j k a.succ) = j := by
  funext a; apply Fin.ext
  match a with
  | ⟨0, _⟩ => rfl
  | ⟨1, _⟩ => rfl

/-- The lifted column read above `j` is the column at `j`. -/
theorem lifted_at (P : FVec Ideal Col .f32) (hc : Col.ShapeCasts Lifted) (h : Lifted.Reduces [0] Col) (j : Col.Idx) (k : Fin 1) :
    shapeCast Lifted P hc (h.lift j k) = P j :=
  (shapeCast_addUnit_apply ![200, 1] P hc (h.lift j k)).trans (congrArg P (lift_tail h j k))

/-- The maximum over the unit axis, from −∞, is the column's entry. -/
theorem max_over_one (P : FVec Ideal Col .f32) (hc : Col.ShapeCasts Lifted) (h : Lifted.Reduces [0] Col)
    (hφ : FKind.Formats .f32) (hacc : (0xFF800000#32 : BitVec 32) = FKind.maximumf.neutral .f32 hφ) (j : Col.Idx) :
    multiReduction .maximumf [0] Col (shapeCast Lifted P hc) 0xFF800000#32 h hφ hacc j = P j := by
  rw [Ideal.multiReduction_maximumf_single]
  exact (fold_max_one _).trans (lifted_at P hc h j 0)

/-- The sum over the unit axis is the one entry above the index. -/
theorem sum_over_one (X : FVec Ideal Lifted .f32) (h : Lifted.Reduces [0] Col)
    (hφ : FKind.Formats .f32) (hacc : (0x00000000#32 : BitVec 32) = FKind.add.neutral .f32 hφ) (j : Col.Idx) :
    multiReduction .add [0] Col X 0x00000000#32 h hφ hacc j = X (h.lift j (0 : Fin 1)) := by
  rw [Ideal.multiReduction_add_single]
  exact Fin.sum_univ_one _

/-- THE WEIGHT of a real column entry is 1: the exponential of the entry shifted by the column maximum, over the
    sum of those exponentials along the unit axis — the softmax recipe as the vector operations spell it, read at `j`. -/
theorem weight_real (P : FVec Ideal Col .f32) (hc : Col.ShapeCasts Lifted) (h : Lifted.Reduces [0] Col)
    (hφ : FKind.Formats .f32) (hacc : (0xFF800000#32 : BitVec 32) = FKind.maximumf.neutral .f32 hφ)
    (hφ' : FKind.Formats .f32) (hacc' : (0x00000000#32 : BitVec 32) = FKind.add.neutral .f32 hφ')
    (j : Col.Idx) (r : ℝ) (hr : P j = (r : EReal)) :
    FloatOps.divf
        (FloatOps.exp (FloatOps.subf (P j) (FloatOps.maximumf (Scalar.ofBits .f32 0xFF800000#32)
          (multiReduction .maximumf [0] Col (shapeCast Lifted P hc) 0xFF800000#32 h hφ hacc j))))
        (multiReduction .add [0] Col
          (exp (subf (shapeCast Lifted P hc) (shapeCast Lifted (maximumf (broadcast Col (Scalar.ofBits .f32 0xFF800000#32))
            (multiReduction .maximumf [0] Col (shapeCast Lifted P hc) 0xFF800000#32 h hφ hacc)) hc)))
          0x00000000#32 h hφ' hacc' j)
      = (1 : EReal) := by
  rw [sum_over_one]
  show Ideal.div
      (Ideal.exp (P j - max (Ideal.ofBits .f32 0xFF800000#32)
        (multiReduction .maximumf [0] Col (shapeCast Lifted P hc) 0xFF800000#32 h hφ hacc j)))
      (Ideal.exp (shapeCast Lifted P hc (h.lift j (0 : Fin 1))
        - shapeCast Lifted (maximumf (broadcast Col (Scalar.ofBits .f32 0xFF800000#32))
            (multiReduction .maximumf [0] Col (shapeCast Lifted P hc) 0xFF800000#32 h hφ hacc)) hc (h.lift j (0 : Fin 1)))) = 1
  rw [lifted_at P hc h j 0, lifted_at _ hc h j 0]
  show Ideal.div
      (Ideal.exp (P j - max (Ideal.ofBits .f32 0xFF800000#32)
        (multiReduction .maximumf [0] Col (shapeCast Lifted P hc) 0xFF800000#32 h hφ hacc j)))
      (Ideal.exp (P j - max (Ideal.ofBits .f32 0xFF800000#32)
        (multiReduction .maximumf [0] Col (shapeCast Lifted P hc) 0xFF800000#32 h hφ hacc j))) = 1
  rw [max_over_one, hr, shifted_exp_real, div_one_one]

end Cert.OneEntrySoftmax

end
-- ==== Proof.KernelBlock.lean ====
/-
  What ONE grid step of the kernel leaves in its output block, entry by entry.

  The step loads a column block a[200, 1] and a slab block ft[16, 200, 256] and stores
      (Σ_k ft[k, p, q]) · w[p],     w = the softmax of a over a unit axis laid above the column.
  Where the column is real at row p the weight w[p] is 1 (one-entry softmax), so the entry stored at (p, q) is
  the plain sum over the 16 slabs, Σ_k ft[k, p, q].
-/
import proofs.«107519_g33114197852456_cont_9to1_1009_6_alg».proof.Proof.Gen.KernelIdeal.Value
import proofs.«107519_g33114197852456_cont_9to1_1009_6_alg».proof.Proof.OneEntrySoftmax
import Idealize.ShloMosaic.Lib.ValueIdx
import Idealize.ShloMosaic.PureOps.Ideal.Laws

noncomputable section

open Idealize.ShloMosaic Idealize.ShloMosaic.ValueIdx

namespace Cert.KernelIdeal.BlockValue

open Cert.KernelIdeal Cert.KernelIdeal.Gen Cert.KernelIdeal.Value

/-- The offsets of a whole-block rectangle are all zero (rank 2, rank 3). -/
theorem zero2 : (![0, 0] : Fin 2 → Nat) = fun _ => 0 := funext fun a => by fin_cases a <;> rfl
theorem zero3 : (![0, 0, 0] : Fin 3 → Nat) = fun _ => 0 := funext fun a => by fin_cases a <;> rfl

/-- The row of the column block that block index `y` reads: (y₀, 0). -/
abbrev rowOf (y : S200x256.Idx) : S200x1.Idx := ix2_1 y

/-- Slab `k` above the block index (p, q) is the index (k, p, q) of the slab block. -/
theorem slab_above (y : S200x256.Idx) (k : Fin 16) :
    reduces_S16x200x256_S200x256.lift (ix2_0 y) k = ix3 k (y 0) (y 1) := by
  funext a; apply Fin.ext
  match a with
  | ⟨0, _⟩ => rfl
  | ⟨1, _⟩ => rfl
  | ⟨2, _⟩ => rfl

/-- The index-by-index form of the stored block, where the column is real at the row read: the weight is 1 and the
    entry is the sum over the slabs. -/
theorem entry_of_real (P0 : Vec Ideal S16x200x256 .f32) (P1 : Vec Ideal S200x1 .f32) (y : S200x256.Idx) (r : ℝ)
    (hr : P1 (rowOf y) = (r : EReal)) :
    E2 (F := Ideal) P0 P1 y = ∑ k : Fin 16, P0 (ix3 k (y 0) (y 1)) := by
  have hw := Cert.OneEntrySoftmax.weight_real P1 shapeCasts_S200x1_S1x200x1 reduces_S1x200x1_S200x1 (.inl rfl) rfl (.inl rfl) rfl
    (rowOf y) r hr
  refine (congrArg (FloatOps.mulf (multiReduction .add [0] S200x256 P0 0x00000000#32 reduces_S16x200x256_S200x256 (.inl rfl) rfl (ix2_0 y))) hw).trans ?_
  show (multiReduction (F := Ideal) .add [0] S200x256 P0 0x00000000#32 reduces_S16x200x256_S200x256 (.inl rfl) rfl (ix2_0 y) : EReal) * 1 = _
  rw [mul_one]
  refine (Ideal.multiReduction_add_single P0 0x00000000#32 reduces_S16x200x256_S200x256 (.inl rfl) rfl (ix2_0 y)).trans ?_
  exact Finset.sum_congr rfl fun k _ => congrArg P0 (slab_above y k)

/-- WHAT A STEP STORES at block index `y`, from the two blocks it loaded, where the column block is real at the row read. -/
theorem stored_entry (x0 : Vec Ideal S200x1 .f32) (x1 : Vec Ideal S16x200x256 .f32) (y : S200x256.Idx) (r : ℝ)
    (hr : x0 (rowOf y) = (r : EReal)) :
    out0_2 (F := Ideal) x0 x1 y = ∑ k : Fin 16, x1 (ix3 k (y 0) (y 1)) := by
  unfold out0_2
  rw [View.ld_unit_zero (S := S200x1) zero2, View.ld_unit_zero (S := S16x200x256) zero3]
  exact (canon2_eq (F := Ideal) x1 x0 y).trans (entry_of_real x1 x0 y r hr)

end Cert.KernelIdeal.BlockValue

end
-- ==== Proof.KernelArray.lean ====
/-
  From blocks to the whole array, for the kernel.

  Grid step t (of 50) loads rows 200·t … 200·t + 199 of the column a and of every slab of ft, and writes back rows
  200·t … 200·t + 199 of the result. With a real everywhere, what it writes at row p, lane q of its block is
  Σ_k ft[k, 200·t + p, q] — block t of the slab sum. The 50 blocks tile the 10000 rows (row n lies in block n / 200),
  so after the run the result array IS the slab sum.
-/
import proofs.«107519_g33114197852456_cont_9to1_1009_6_alg».proof.Proof.Gen.KernelIdeal.Value
import proofs.«107519_g33114197852456_cont_9to1_1009_6_alg».proof.Proof.KernelBlock
import proofs.«107519_g33114197852456_cont_9to1_1009_6_alg».proof.Proof.SlabSum
import Idealize.ShloMosaic.Lib.Pipeline.Value
import Idealize.ShloMosaic.Lib.ValueIdx

noncomputable section

namespace Cert.KernelIdeal.ArrayValue

open Cert.KernelIdeal Cert.KernelIdeal.Gen Cert.KernelIdeal.Value Cert.SlabSum
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The slabs as the region finds them, at their literal type (an extended real per index). -/
abbrev slabs (c : Dev nD) : S16x10000x256.Idx → EReal := V m c main_arg1

/-- How the three windows move over the grid, decided at its 50 points: the column block and the slab block follow the
    output block's row index; every other block index is 0. -/
theorem idx_facts : ∀ t : Fin cfg0.N,
    win0_0.index t (0 : Fin 2) = win0_2.index t (0 : Fin 2)
    ∧ win0_0.index t (1 : Fin 2) = 0
    ∧ win0_1.index t (0 : Fin 3) = 0
    ∧ win0_1.index t (1 : Fin 3) = win0_2.index t (0 : Fin 2)
    ∧ win0_1.index t (2 : Fin 3) = 0
    ∧ win0_2.index t (1 : Fin 2) = 0
    ∧ win0_2.index t (0 : Fin 2) ≤ 49 :=
  (by decide +kernel : ∀ t : Fin grid0.N, _)

/-- Every one of the 50 row blocks is some grid step's. -/
theorem idx_onto : ∀ b : Fin 50, ∃ t : Fin cfg0.N, win0_2.index t = ![b.val, 0] :=
  (by decide +kernel : ∀ b : Fin 50, ∃ t : Fin grid0.N, win0_2.index t = ![b.val, 0])

/-- WHAT STEP `t` WRITES BACK is block `t` of the slab sum of ft as the region finds it, when the column is real. -/
theorem flushed_eq (c : Dev nD) (hreal : ∀ j, ∃ r : ℝ, V m c main_arg0 j = (r : EReal)) (t : Fin cfg0.N) :
    (dats m 0 c).flushed 2 t = ((cfg0.win 2).blk t).view.read (Elt Ideal) (slabSum (V m c main_arg1)) := by
  rw [Value.flushed2]
  obtain ⟨e00, e01, e10, e11, e12, e21, -⟩ := idx_facts t
  funext j
  obtain ⟨r, hr⟩ := hreal (((cfg0.win 0).blk t).view.emb (BlockValue.rowOf j))
  show out0_2 (iblk m c 0 t) (iblk m c 1 t) j
      = ∑ k : Fin 16, slabs m c (ix3 k ((((cfg0.win 2).blk t).view.emb j) 0) ((((cfg0.win 2).blk t).view.emb j) 1))
  refine (BlockValue.stored_entry (iblk m c 0 t) (iblk m c 1 t) j r hr).trans ?_
  refine Finset.sum_congr rfl fun k _ => ?_
  show slabs m c (((cfg0.win 1).blk t).view.emb (ix3 k (j 0) (j 1))) = _
  refine congrArg (slabs m c) (funext fun a => Fin.ext ?_)
  have hj0 : (j 0).val < 200 := (j 0).isLt
  have hj1 : (j 1).val < 256 := (j 1).isLt
  match a with
  | ⟨0, _⟩ => show win0_1.index t (0 : Fin 3) * 16 + 1 * k.val = k.val; omega
  | ⟨1, _⟩ => show win0_1.index t (1 : Fin 3) * 200 + 1 * (j 0).val = win0_2.index t (0 : Fin 2) * 200 + 1 * (j 0).val; omega
  | ⟨2, _⟩ => show win0_1.index t (2 : Fin 3) * 256 + 1 * (j 1).val = win0_2.index t (1 : Fin 2) * 256 + 1 * (j 1).val; omega

/-- An index of the result array is in step `t`'s block iff each coordinate is in the block's range on its axis. -/
theorem mem_blk (t : Fin cfg0.N) (i : S10000x256.Idx) :
    i ∈ ((cfg0.win 2).blk t).view.set ↔ ∀ a : Fin 2, win0_2.index t a * S200x256.size a ≤ (i a).val ∧ (i a).val < win0_2.index t a * S200x256.size a + S200x256.size a := by
  show i ∈ ((View.whole main_v0).slice (win0_2.rect t)).set ↔ _
  rw [View.set_slice_whole, Rect.mem_set_unit]
  exact Iff.rfl

/-- The blocks tile the array: row n lies in the block of step n / 200. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto ⟨(i 0).val / 200, by omega⟩
  have q0 : win0_2.index t (0 : Fin 2) = (i 0).val / 200 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 256 ≤ (i 1).val ∧ (i 1).val < win0_2.index t (1 : Fin 2) * 256 + 256; omega

/-- THE RESULT ARRAY after the run is the slab sum of ft as launched, when the column is real. -/
theorem final (c : Dev nD) (hreal : ∀ j, ∃ r : ℝ, V m c main_arg0 j = (r : EReal)) :
    (dats m 0 c).arrAt 2 cfg0.N = slabSum (m ((c : Thread nD τ).loc main_arg1)) :=
  (dats m 0 c).arrAt_eq_of_cover 2 (slabSum (V m c main_arg1)) (fun t _ => flushed_eq m c hreal t) cover

/-- The kernel's run re-posted: the result at the slab sum, the arguments unchanged. -/
theorem run (hreal : ∀ (c : Dev nD) j, ∃ r : ℝ, m ((c : Thread nD τ).loc main_arg0) j = (r : EReal)) :
    θ_run defs (onTc (τ := τ) (main (F := Ideal))) ⟨m, fun _ => 0, ρ⟩ fun r => ∀ c : Dev nD,
      r.2.mem ((c : Thread nD τ).loc main_v0) = slabSum (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c)), (h c).2⟩) (Value.run_blocks m ρ)

end Cert.KernelIdeal.ArrayValue

end
-- ==== Proof.ReferenceSum.lean ====
/-
  The reference, entry by entry.

  The host program lays a unit axis above the column a[10000, 1], takes the softmax over that axis
  (maximum from −∞, shift, exponential, sum from 0, quotient), spreads the weights over ft[16, 10000, 256],
  multiplies and sums over the 16 slabs:      out[n, q] = 0 + Σ_k w[n] · ft[k, n, q].
  Where a is real at row n the weight w[n] is 1 (one-entry softmax), so out[n, q] = Σ_k ft[k, n, q].
-/
import proofs.«107519_g33114197852456_cont_9to1_1009_6_alg».proof.Proof.Gen.ReferenceIdeal.Read
import proofs.«107519_g33114197852456_cont_9to1_1009_6_alg».proof.Proof.OneEntrySoftmax
import Idealize.ShloMosaic.Lib.ValueIdx
import Idealize.ShloMosaic.PureOps.Reduce
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.OneEntrySoftmax

/-- Row `n` of the column, and the one index of the lifted column above it. -/
abbrev row (n : Fin 10000) : S10000x1.Idx := ix2 n (0 : Fin 1)
abbrev above (n : Fin 10000) : S1x10000x1.Idx := ix3 (0 : Fin 1) n (0 : Fin 1)

/-- The lifted column reduces over its leading unit axis to the column. -/
theorem reduces_lifted : S1x10000x1.Reduces [0] S10000x1 := by decide

/-- The host's maximum over the unit axis, from −∞, at row `n` is the column's entry there. -/
theorem column_max (x0 : (⟨S10000x1, .f32⟩ : BufTy).Contents (Elt Ideal)) (n : Fin 10000) :
    val_main_v1 (F := Ideal) x0 (row n) = x0 (row n) := by
  unfold val_main_v1
  rw [Host.reduce_eq_fold_single FloatOps.maximumf _ _ reducesTo_S1x10000x1_S10000x1_d0 reduces_lifted h_S_]
  show Finset.fold max (Ideal.ofBits .f32 0xFF800000#32) (val_main_v0 (F := Ideal) x0 ∘ reduces_lifted.lift (row n)) (Finset.univ : Finset (Fin 1)) = _
  refine (fold_max_one _).trans ?_
  show val_main_v0 (F := Ideal) x0 (reduces_lifted.lift (row n) (0 : Fin 1)) = x0 (row n)
  rw [val_main_v0_apply]
  exact congrArg x0 (funext fun a => Fin.ext (by match a with | ⟨0, _⟩ => rfl | ⟨1, _⟩ => rfl))

/-- The exponential of the shifted entry above a real row is 1. -/
theorem shifted_exp (x0 : (⟨S10000x1, .f32⟩ : BufTy).Contents (Elt Ideal)) (n : Fin 10000) (r : ℝ)
    (hr : x0 (row n) = (r : EReal)) : val_main_v6 (F := Ideal) x0 (above n) = 1 := by
  have i0 : idx_main_v0 (above n) = row n :=
    funext fun a => Fin.ext (by match a with | ⟨0, _⟩ => rfl | ⟨1, _⟩ => rfl)
  have i4 : idx_main_v4 (above n) = row n :=
    funext fun a => Fin.ext (by match a with | ⟨0, _⟩ => rfl | ⟨1, _⟩ => rfl)
  rw [val_main_v6_apply, val_main_v5_apply, val_main_v0_apply, val_main_v4_apply, val_main_v3_apply, val_main_v2_apply,
    val_main_cst_0_apply, i0, i4, column_max, hr]
  exact shifted_exp_real r

/-- THE WEIGHT above a real row is 1. -/
theorem weight_real (x0 : (⟨S10000x1, .f32⟩ : BufTy).Contents (Elt Ideal)) (n : Fin 10000) (r : ℝ)
    (hr : x0 (row n) = (r : EReal)) : val_main_v9 (F := Ideal) x0 (above n) = 1 := by
  have i7 : idx_main_v7 (idx_main_v8 (above n)) (0 : Fin 1) = above n :=
    funext fun a => Fin.ext (by match a with | ⟨0, _⟩ => rfl | ⟨1, _⟩ => rfl | ⟨2, _⟩ => rfl)
  rw [val_main_v9_apply, val_main_v8_apply, val_main_v7_apply, Fin.sum_univ_one, val_main_cst_1_apply, i7,
    shifted_exp x0 n r hr]
  show Ideal.div (1 : EReal) (Ideal.ofBits .f32 0x00000000#32 + 1) = 1
  rw [Ideal.ofBits_zero_f32, zero_add]
  exact div_one_one

/-- THE RESULT at (n, q), where the column is real at row n: the sum of the 16 slabs' entries there. -/
theorem result_entry (x0 : (⟨S10000x1, .f32⟩ : BufTy).Contents (Elt Ideal))
    (x1 : (⟨S16x10000x256, .f32⟩ : BufTy).Contents (Elt Ideal)) (n : Fin 10000) (q : Fin 256) (r : ℝ)
    (hr : x0 (row n) = (r : EReal)) :
    val_main_v12 (F := Ideal) x0 x1 (ix2 n q) = ∑ k : Fin 16, x1 (ix3 k n q) := by
  rw [val_main_v12_apply, val_main_cst_2_apply]
  show Ideal.ofBits .f32 0x00000000#32 + _ = _
  rw [Ideal.ofBits_zero_f32, zero_add]
  refine Finset.sum_congr rfl fun k _ => ?_
  have i10 : idx_main_v10 (idx_main_v12 (ix2 n q) k) = above n :=
    funext fun a => Fin.ext (by match a with | ⟨0, _⟩ => rfl | ⟨1, _⟩ => rfl | ⟨2, _⟩ => rfl)
  have i12 : idx_main_v12 (ix2 n q) k = ix3 k n q :=
    funext fun a => Fin.ext (by match a with | ⟨0, _⟩ => rfl | ⟨1, _⟩ => rfl | ⟨2, _⟩ => rfl)
  rw [val_main_v11_apply, val_main_v10_apply, i10, weight_real x0 n r hr, i12]
  show (1 : EReal) * _ = _
  exact one_mul _

end Cert.ReferenceIdeal.RefValue

end
-- ==== Proof.lean ====
/-
  The kernel and its reference compute the same array on the extended reals, for finite inputs.

  Both take a column a[10000, 1] and slabs ft[16, 10000, 256]. Both form e = softmax of a over a unit axis laid above
  the column, and combine it with the sum over the 16 slabs:
      kernel     out[n, q] = (Σ_k ft[k, n, q]) · e[n]         (block by block, 200 rows per grid step)
      reference  out[n, q] = 0 + Σ_k e[n] · ft[k, n, q].
  A softmax over ONE entry is 1 wherever that entry is a real number: max(−∞, a) = a, a − a = 0, e⁰ = 1, the sum of
  the one exponential is 1, and 1 / 1 = 1 (Proof/OneEntrySoftmax.lean). The precondition makes every entry of a real
  (Proof/FiniteColumn.lean), so both sides are the plain slab sum Σ_k ft[k, n, q] (Proof/SlabSum.lean): the kernel by
  what each grid step stores and the tiling of the rows by the 50 blocks (Proof/KernelBlock.lean,
  Proof/KernelArray.lean), the reference operation by operation (Proof/ReferenceSum.lean). No distributive law is
  used, so nothing is asked of ft: with weight 1 the products x · 1 and 1 · x are x on all of the extended reals.
  (Without a real the weight is not 1: at a = ±∞ the difference a − a is not 0.)

  The three programs run and leave their arguments unchanged (the frames); the kernel's idealization rewrote no
  operation, so there is nothing to preserve.
-/
import proofs.«107519_g33114197852456_cont_9to1_1009_6_alg».proof.Defs
import proofs.«107519_g33114197852456_cont_9to1_1009_6_alg».proof.Proof.Gen.Kernel
import proofs.«107519_g33114197852456_cont_9to1_1009_6_alg».proof.Proof.Gen.Kernel.Skeleton
import proofs.«107519_g33114197852456_cont_9to1_1009_6_alg».proof.Proof.Gen.Kernel.Launch
import proofs.«107519_g33114197852456_cont_9to1_1009_6_alg».proof.Proof.Gen.Kernel.Points
import proofs.«107519_g33114197852456_cont_9to1_1009_6_alg».proof.Proof.Gen.Kernel.Frame
import proofs.«107519_g33114197852456_cont_9to1_1009_6_alg».proof.Proof.Gen.KernelIdeal
import proofs.«107519_g33114197852456_cont_9to1_1009_6_alg».proof.Proof.Gen.KernelIdeal.Skeleton
import proofs.«107519_g33114197852456_cont_9to1_1009_6_alg».proof.Proof.Gen.KernelIdeal.Launch
import proofs.«107519_g33114197852456_cont_9to1_1009_6_alg».proof.Proof.Gen.KernelIdeal.Points
import proofs.«107519_g33114197852456_cont_9to1_1009_6_alg».proof.Proof.Gen.KernelIdeal.Frame
import proofs.«107519_g33114197852456_cont_9to1_1009_6_alg».proof.Proof.Gen.ReferenceIdeal
import proofs.«107519_g33114197852456_cont_9to1_1009_6_alg».proof.Proof.Gen.Pre_finite_inputs
import proofs.«107519_g33114197852456_cont_9to1_1009_6_alg».proof.Proof.Gen.KernelIdeal.Value
import proofs.«107519_g33114197852456_cont_9to1_1009_6_alg».proof.Proof.Gen.ReferenceIdeal.Run
import proofs.«107519_g33114197852456_cont_9to1_1009_6_alg».proof.Proof.Gen.ReferenceIdeal.Read
import proofs.«107519_g33114197852456_cont_9to1_1009_6_alg».proof.Proof.SlabSum
import proofs.«107519_g33114197852456_cont_9to1_1009_6_alg».proof.Proof.FiniteColumn
import proofs.«107519_g33114197852456_cont_9to1_1009_6_alg».proof.Proof.KernelArray
import proofs.«107519_g33114197852456_cont_9to1_1009_6_alg».proof.Proof.ReferenceSum
import Idealize.ShloMosaic.Adequacy
import Idealize.ShloMosaic.Init

noncomputable section

namespace Cert.Proof

open Idealize.ShloMosaic Idealize.ShloMosaic.ValueIdx Idealize.SL.Sem Cert.SlabSum

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the slab sum Σ_k ft[k, n, q] of the shared argument ft: every entry of the column a is real
    under the precondition, so the one-entry softmax weight is 1 on both sides. -/
theorem algebraic : Cert.algebraic_KernelIdeal_ReferenceIdeal := by
  intro m ρ m' ρ' hpre hagree
  have hreal : ∀ (c : Dev Cert.KernelIdeal.nD) j, ∃ r : ℝ,
      m ((c.tc : Thread Cert.KernelIdeal.nD Cert.KernelIdeal.τ).loc Cert.KernelIdeal.main_arg0) j = (r : EReal) :=
    fun c j => Cert.Pre_finite_inputs.Decode.column_real _ _ (hpre c) j
  refine ⟨fun c => slabSum (m ((c.tc : Thread Cert.KernelIdeal.nD Cert.KernelIdeal.τ).loc Cert.KernelIdeal.main_arg1)),
    Cert.KernelIdeal.ArrayValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  funext i
  obtain ⟨n, q, rfl⟩ : ∃ (n : Fin 10000) (q : Fin 256), i = ix2 n q := ⟨i 0, i 1, eq_ix2 i⟩
  obtain ⟨r, hr⟩ := hreal c (ix2 n (0 : Fin 1))
  exact Cert.ReferenceIdeal.RefValue.result_entry _ _ n q r hr

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
